-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S65536 : Shape := ⟨1, ![65536]⟩
abbrev S_ : Shape := ⟨0, ![]⟩

class Facts : Prop where
  bcast_S_S4096x4096 : S_.BroadcastsInDim S4096x4096 (![] : Fin 0 → Fin S4096x4096.rank)
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S65536 : S_.BroadcastsInDim S65536 (![] : Fin 0 → Fin S65536.rank)
  reducesTo_S65536_S_d0 : S65536.ReducesTo [0] S_
  reducesTo_S4096x4096_S_d0_1 : S4096x4096.ReducesTo [0, 1] S_

variable [Facts]

def fn_part1 {F : FTy → Type} [FloatOps F] (main_v2 : IVec S4096x4096 32) (main_v16 : IVec S_ 1) : IVec S_ 1 :=
  let main_c_5 : IVec S_ 32 := constantI S_ 32 0#32
  let main_v17 : IVec S4096x4096 32 := broadcastInDim S4096x4096 ![] bcast_S_S4096x4096 main_c_5
  let main_v18 : IVec S4096x4096 1 := cmpi .sge main_v2 main_v17
  let main_c_6 : IVec S_ 32 := constantI S_ 32 65536#32
  let main_v19 : IVec S4096x4096 32 := broadcastInDim S4096x4096 ![] bcast_S_S4096x4096 main_c_6
  let main_v20 : IVec S4096x4096 1 := cmpi .slt main_v2 main_v19
  let main_v21 : IVec S4096x4096 1 := andi main_v18 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v16 main_v22
  main_v23

def fn {F : FTy → Type} [FloatOps F] (main_arg0 : FVec F S4x2048x4096 .f32) (main_arg1 : IVec S4096x4096 32) (main_arg2 : IVec S4096x4096 32) (main_arg3 : FVec F S4096x1 .f32) (main_arg4 : FVec F S65536 .f32) : IVec S_ 1 :=
  let main_c : IVec S_ 32 := constantI S_ 32 256#32
  let main_v0 : IVec S4096x4096 32 := broadcastInDim S4096x4096 ![] bcast_S_S4096x4096 main_c
  let main_v1 : IVec S4096x4096 32 := muli main_arg1 main_v0
  let main_v2 : IVec S4096x4096 32 := addi main_v1 main_arg2
  let main_v3 : FVec F S4x2048x4096 .f32 := Host.absf main_arg0
  let main_cst : FVec F S_ .f32 := constant S_ .f32 0x7F800000#32
  let main_v4 : FVec F S4x2048x4096 .f32 := broadcastInDim S4x2048x4096 ![] bcast_S_S4x2048x4096 main_cst
  let main_v5 : IVec S4x2048x4096 1 := cmpf .olt main_v3 main_v4
  let main_c_0 : IVec S_ 1 := constantI S_ 1 1#1
  let main_v6 : IVec S_ 1 := (fun x v => Host.reduce IntOp.andi x v reducesTo_S4x2048x4096_S_d0_1_2 h_S_) main_v5 main_c_0
  let main_v7 : FVec F S4096x1 .f32 := Host.absf main_arg3
  let main_cst_1 : FVec F S_ .f32 := constant S_ .f32 0x7F800000#32
  let main_v8 : FVec F S4096x1 .f32 := broadcastInDim S4096x1 ![] bcast_S_S4096x1 main_cst_1
  let main_v9 : IVec S4096x1 1 := cmpf .olt main_v7 main_v8
  let main_c_2 : IVec S_ 1 := constantI S_ 1 1#1
  let main_v10 : IVec S_ 1 := (fun x v => Host.reduce IntOp.andi x v reducesTo_S4096x1_S_d0_1 h_S_) main_v9 main_c_2
  let main_v11 : IVec S_ 1 := andi main_v6 main_v10
  let main_v12 : FVec F S65536 .f32 := Host.absf main_arg4
  let main_cst_3 : FVec F S_ .f32 := constant S_ .f32 0x7F800000#32
  let main_v13 : FVec F S65536 .f32 := broadcastInDim S65536 ![] bcast_S_S65536 main_cst_3
  let main_v14 : IVec S65536 1 := cmpf .olt main_v12 main_v13
  let main_c_4 : IVec S_ 1 := constantI S_ 1 1#1
  let main_v15 : IVec S_ 1 := (fun x v => Host.reduce IntOp.andi x v reducesTo_S65536_S_d0 h_S_) main_v14 main_c_4
  let main_v16 : IVec S_ 1 := andi main_v11 main_v15
  fn_part1 (F := F) main_v2 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S65536 : Shape := ⟨1, ![65536]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S8192x4096 : Shape := ⟨2, ![8192, 4096]⟩
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 38
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096x1, .f32⟩
  | .hbm, ⟨4, _⟩ => ⟨S65536, .f32⟩
  | .hbm, ⟨5, _⟩ => ⟨S_, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096x1, .i32⟩
  | .hbm, ⟨17, _⟩ => ⟨S1, .i32⟩
  | .hbm, ⟨18, _⟩ => ⟨S_, .i32⟩
  | .hbm, ⟨19, _⟩ => ⟨S4096x4096x1, .i32⟩
  | .hbm, ⟨20, _⟩ => ⟨S4096x4096x1, .i1⟩
  | .hbm, ⟨21, _⟩ => ⟨S1x1x1, .i32⟩
  | .hbm, ⟨22, _⟩ => ⟨S4096x4096x1, .i32⟩
  | .hbm, ⟨23, _⟩ => ⟨S4096x4096x1, .i1⟩
  | .hbm, ⟨24, _⟩ => ⟨S4096x4096x1, .i1⟩
  | .hbm, ⟨25, _⟩ => ⟨S_, .i1⟩
  | .hbm, ⟨26, _⟩ => ⟨S4096x4096, .i1⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .bf16⟩
  | .hbm, ⟨34, _⟩ => ⟨S4096x4096, .bf16⟩
  | .hbm, ⟨35, _⟩ => ⟨S8192x4096, .f32⟩
  | .hbm, ⟨36, _⟩ => ⟨S8192x4096, .f32⟩
  | .hbm, ⟨37, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .f32⟩
  | .local _ .vmem, ⟨5, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bcast_S4096x1_S4096x4096_0_1 : S4096x1.BroadcastsInDim S4096x4096 (![0, 1] : Fin 2 → Fin S4096x4096.rank)
  bitsLt_bf16_f32 : FTy.bits .bf16 < FTy.bits .f32
  transposes_S4096x4096_S4096x4096_1_0 : S4096x4096.Transposes [1, 0] S4096x4096
  shapeCasts_S4x2048x4096_S8192x4096 : S4x2048x4096.ShapeCasts S8192x4096
  inb_S2048x2048_S2048x2048_0_0 : ∀ a, (![0, 0] : Fin 2 → Nat) a + S2048x2048.size a ≤ S2048x2048.size a
  h_S2048x2048 : 0 < S2048x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S8192x4096_S4x2048x4096 : S8192x4096.ShapeCasts S4x2048x4096
  gather_S65536_S4096x4096x1_S4096x4096_n_0_n_n_0_2_1_wf : GatherDims.WF S65536 S4096x4096x1 S4096x4096 [] [0] [] [0] [] 2 ![1]
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .bf16 = 32 ∨ (Rect.block (s := S4096x4096) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x4096.size a
  hwx0_2 : ∀ i : grid0.Coords, EltTy.bits .f32 = 32 ∨ (Rect.block (s := S8192x4096) S2048x2048.size (cc0_transform_2 i) (hinb0_2 i)).WholeWords (EltTy.packing .f32)

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S65536 : Shape := ⟨1, ![65536]⟩
abbrev S_ : Shape := ⟨0, ![]⟩
abbrev S4096x4096x1 : Shape := ⟨3, ![4096, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096x1, .f32⟩
  | .hbm, ⟨4, _⟩ => ⟨S65536, .f32⟩
  | .hbm, ⟨5, _⟩ => ⟨S_, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096x1, .i32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x1_S4096x4096_0_1 : S4096x1.BroadcastsInDim S4096x4096 (![0, 1] : Fin 2 → Fin S4096x4096.rank)
  gather_S65536_S4096x4096x1_S4096x4096_n_0_n_n_0_2_1_wf : GatherDims.WF S65536 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.IndexRange.lean ====
/- What the precondition says of the two index arrays. The packed table index is `base * 256 + fine`, computed in 32-bit
   words exactly as both programs compute it; the precondition's last conjunct says that at every entry this word, read
   signed, lies in [0, 65536): it indexes the 65536-entry table in range. From that one fact the word is not negative (so
   the wrap of negative indices leaves it alone) and it passes the two tests `0 ≤ ·` and `· ≤ 65535` that guard the
   kernel's table lookup. -/
import proofs.«429604_j50663434223825_3_alg».proof.Proof.Gen.Pre_finite_inputs
import Idealize.ShloMosaic.Lib.ReduceAll
import Idealize.ShloMosaic.Lib.ValueIdx

noncomputable section

namespace Cert.Hand.IndexRange

open Idealize.ShloMosaic Cert.Pre_finite_inputs

instance : Subsingleton S_.Idx := ⟨fun a b => funext fun d => d.elim0⟩

/-- The packed index word at every entry: `base * 256 + fine` in 32-bit arithmetic. -/
abbrev packed (b f : IVec S4096x4096 32) : IVec S4096x4096 32 :=
  addi (muli b (broadcastInDim S4096x4096 ![] Facts.bcast_S_S4096x4096 (constantI S_ 32 256#32))) f

/-- Under the precondition every packed index word is at least 0 and below 65536, read signed. -/
theorem packed_in_range {F : FTy → Type} [FloatOps F] (x : FVec F S4x2048x4096 .f32) (b f : IVec S4096x4096 32)
    (s : FVec F S4096x1 .f32) (l : FVec F S65536 .f32) (h : fn (F := F) x b f s l = fun _ => 1#1) (i : S4096x4096.Idx) :
    0 ≤ (packed b f i).toInt ∧ (packed b f i).toInt < 65536 := by
  have h0 := congrFun h ValueIdx.ix0
  dsimp only [fn, fn_part1] at h0
  have h1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  exact ⟨hge', hlt'⟩

end Cert.Hand.IndexRange
-- ==== Proof.TileProduct.lean ====
/- One grid point's arithmetic, at an entry. The body multiplies a [2048 x 256] tile of the activations by a [256 x 2048]
   tile of the weights into a zero accumulator and adds the result to what the output tile already holds. On the extended
   reals (a change of float format is the identity there) entry (p, q) of the new tile is the old entry plus the sum over
   the tile's 256 contraction columns j of x(p, j) * w(j, q). The first point of a reduction run stores a zero tile
   first, whose entries are the extended real 0. -/
import proofs.«429604_j50663434223825_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileProduct

open Idealize.ShloMosaic Idealize.ShloMosaic.ValueIdx Cert.KernelIdeal Cert.KernelIdeal.Gen

/-- The body's accumulate step as one expression of its three loads, at any float instance: the identity re-layouts
    dropped. -/
theorem step_eq {F : FTy → Type} [FloatOps F] (x : Vec F S2048x256 .f32) (acc : Vec F S2048x2048 .f32) (w : Vec F S256x2048 .bf16) :
    k0_pay2 (F := F) x acc w
      = addf acc (matmul dot_S2048x256_S256x2048_S2048x2048_1_0_0_1_n_n none (truncf .bf16 x Facts₀.bitsLt_bf16_f32) w
          (constant S2048x2048 .f32 0x00000000#32)) := by
  unfold k0_pay2
  simp only [shapeCast_self]

/-- The left operand of the tile product is read at (output row, contraction column) … -/
theorem lhs_row (i : S2048x2048.Idx) (q : dot_S2048x256_S256x2048_S2048x2048_1_0_0_1_n_n.contr.Idx) :
    (dot_S2048x256_S256x2048_S2048x2048_1_0_0_1_n_n.lhsIdx i q 0).val = (i 0).val := by
  unfold DotDims.lhsIdx
  rw [dif_neg (show ¬(0 : Fin S2048x256.rank) ∈ dot_S2048x256_S256x2048_S2048x2048_1_0_0_1_n_n.lhsBatch by decide), dif_pos (show (0 : Fin S2048x256.rank) ∈ dot_S2048x256_S256x2048_S2048x2048_1_0_0_1_n_n.lhsNonContracting by decide)]
  rfl
theorem lhs_col (i : S2048x2048.Idx) (q : dot_S2048x256_S256x2048_S2048x2048_1_0_0_1_n_n.contr.Idx) :
    (dot_S2048x256_S256x2048_S2048x2048_1_0_0_1_n_n.lhsIdx i q 1).val = (q ⟨0, by decide⟩).val :=
  dot_S2048x256_S256x2048_S2048x2048_1_0_0_1_n_n.lhsIdx_val_of_single rfl i q
/-- … and the right operand at (contraction column, output column). -/
theorem rhs_row (i : S2048x2048.Idx) (q : dot_S2048x256_S256x2048_S2048x2048_1_0_0_1_n_n.contr.Idx) :
    (dot_S2048x256_S256x2048_S2048x2048_1_0_0_1_n_n.rhsIdx i q 0).val = (q ⟨0, by decide⟩).val :=
  dot_S2048x256_S256x2048_S2048x2048_1_0_0_1_n_n.rhsIdx_val_of_single rfl i q
theorem rhs_col (i : S2048x2048.Idx) (q : dot_S2048x256_S256x2048_S2048x2048_1_0_0_1_n_n.contr.Idx) :
    (dot_S2048x256_S256x2048_S2048x2048_1_0_0_1_n_n.rhsIdx i q 1).val = (i 1).val := by
  unfold DotDims.rhsIdx
  rw [dif_neg (show ¬(1 : Fin S256x2048.rank) ∈ dot_S2048x256_S256x2048_S2048x2048_1_0_0_1_n_n.rhsBatch by decide), dif_pos (show (1 : Fin S256x2048.rank) ∈ dot_S2048x256_S256x2048_S2048x2048_1_0_0_1_n_n.rhsNonContracting by decide)]
  rfl

/-- The tile product into a zero accumulator, at entry (p, q): the sum over the 256 contraction columns. -/
theorem product_apply (x : FVec Ideal S2048x256 .bf16) (w : FVec Ideal S256x2048 .bf16) (p q : Fin 2048) :
    matmul (F := Ideal) dot_S2048x256_S256x2048_S2048x2048_1_0_0_1_n_n none x w (constant (F := Ideal) S2048x2048 .f32 0x00000000#32) (ix2 p q)
      = ∑ j : Fin 256, x (ix2 p j) * w (ix2 j q) := by
  simp only [matmul]
  rw [Ideal.matmul_constant_zero_apply, ← Equiv.sum_comp (ValueIdx.contrEquiv1 dot_S2048x256_S256x2048_S2048x2048_1_0_0_1_n_n 256 rfl rfl).symm]
  refine Finset.sum_congr rfl fun k _ => ?_
  have hk := ValueIdx.contrEquiv1_symm_val dot_S2048x256_S256x2048_S2048x2048_1_0_0_1_n_n 256 rfl rfl k
  have el : dot_S2048x256_S256x2048_S2048x2048_1_0_0_1_n_n.lhsIdx (ix2 p q) ((ValueIdx.contrEquiv1 dot_S2048x256_S256x2048_S2048x2048_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x2048_S2048x2048_1_0_0_1_n_n.rhsIdx (ix2 p q) ((ValueIdx.contrEquiv1 dot_S2048x256_S256x2048_S2048x2048_1_0_0_1_n_n 256 rfl rfl).symm k) = ix2 k q := funext fun a => Fin.ext (by
    match a with
    | ⟨0, _⟩ => exact (rhs_row _ _).trans hk
    | ⟨1, _⟩ => exact rhs_col _ _)
  rw [el, er]

/-- The accumulate step at entry (p, q): the old entry plus this tile's 256 products. -/
theorem step_apply (x : Vec Ideal S2048x256 .f32) (acc : Vec Ideal S2048x2048 .f32) (w : Vec Ideal S256x2048 .bf16) (p q : Fin 2048) :
    k0_pay2 (F := Ideal) x acc w (ix2 p q) = acc (ix2 p q) + ∑ j : Fin 256, x (ix2 p j) * w (ix2 j q) := by
  rw [step_eq]
  show acc (ix2 p q) + matmul (F := Ideal) dot_S2048x256_S256x2048_S2048x2048_1_0_0_1_n_n none (truncf .bf16 x Facts₀.bitsLt_bf16_f32) w (constant (F := Ideal) S2048x2048 .f32 0x00000000#32) (ix2 p q) = _
  rw [product_apply]
  rfl

/-- The zero tile's entries are 0. -/
theorem zero_apply (i : S2048x2048.Idx) : k0_pay1 (F := Ideal) i = 0 := by
  show Ideal.ofBits .f32 0x00000000#32 = 0
  exact Ideal.ofBits_zero_f32

end Cert.KernelIdeal.TileProduct
-- ==== Proof.Cases.lean ====
/- What one run of the body leaves in the output tile, by control case, at any float instance. At the first point of a
   reduction run (contraction block 0) the body stores a zero tile, reads it back, and stores the accumulate step over
   it; at every later point it stores the accumulate step over what the tile held. In both cases the last store covers the
   whole tile, so the tile ends at that store's value, and the body's loads read the whole input tiles. -/
import proofs.«429604_j50663434223825_3_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem offsets_zero : (![0, 0] : Fin 2 → Nat) = fun _ => 0 := funext fun a => by fin_cases a <;> rfl

/-- A later point of a reduction run: the accumulate step over what the tile held. -/
theorem later (c : Dev nD) (i : grid0.Coords) (a3 : Memref sig .tc .vmem S2048x256 .f32) (h3 : a3.IsWhole)
    (a4 : Memref sig .tc .vmem S256x2048 .bf16) (h4 : a4.IsWhole) (a5 : Memref sig .tc .vmem S2048x2048 .f32) (h5 : a5.IsWhole)
    (hc : ¬cond0_0 i) (x0 : Vec F S2048x256 .f32) (x1 : Vec F S256x2048 .bf16) (xo : Vec F S2048x2048 .f32) :
    out0_B_2 c i a3 h3 a4 h4 a5 h5 hc x0 x1 xo = k0_pay2 x0 xo x1 := by
  unfold out0_B_2
  rw [View.read_writes_eq_canon _ _ _ (cover0_B_2 c i a3 h3 a4 h4 a5 h5 hc x0 x1 xo)]
  unfold kernelRun0_B
  dsimp only
  sl_unfold_words
  rw [View.canon_unit_zero offsets_zero]
  simp only [View.readAt_eq_ld, h3.read_unread, h4.read_unread, h5.read_unread, View.ld_unit_zero (S := S2048x256) offsets_zero,
    View.ld_unit_zero (S := S256x2048) offsets_zero, View.ld_unit_zero (S := S2048x2048) offsets_zero]

/-- The first point of a reduction run: the accumulate step over the zero tile. -/
theorem first (c : Dev nD) (i : grid0.Coords) (a3 : Memref sig .tc .vmem S2048x256 .f32) (h3 : a3.IsWhole)
    (a4 : Memref sig .tc .vmem S256x2048 .bf16) (h4 : a4.IsWhole) (a5 : Memref sig .tc .vmem S2048x2048 .f32) (h5 : a5.IsWhole)
    (hc : cond0_0 i) (x0 : Vec F S2048x256 .f32) (x1 : Vec F S256x2048 .bf16) :
    out0_A_2 c i a3 h3 a4 h4 a5 h5 hc x0 x1 = k0_pay2 x0 (k0_pay1 (F := F)) x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x2048) offsets_zero, View.readCov_unit_zero (S := S2048x2048) _ offsets_zero]
  simp only [View.readAt_eq_ld, h3.read_unread, h4.read_unread, View.ld_unit_zero (S := S2048x256) offsets_zero,
    View.ld_unit_zero (S := S256x2048) offsets_zero, View.ld_unit_zero (S := S2048x2048) offsets_zero,
    View.readCov_unit_zero (S := S2048x2048) _ offsets_zero]

end Cert.KernelIdeal.Cases
-- ==== Proof.Linear.lean ====
/- The linear layer both programs compute: out[b, s, o] = sum over the 4096 inputs k of x[b, s, k] * w[o, k], on the extended
   reals, for an activation array [4, 2048, 4096] and a weight array [O, I] = [4096, 4096]. Also a rank-2 array read at a
   pair of natural-number coordinates (0 outside the array), which lets a tile's entries be named by plain arithmetic. -/
import Idealize.ShloMosaic.Lib.ValueIdx
import Idealize.ShloMosaic.PureOps.Ideal

noncomputable section

namespace Cert.Hand.Linear

open Idealize.ShloMosaic Idealize.ShloMosaic.ValueIdx

/-- `x` times the transpose of `w`, entry by entry. -/
def linear (x : (⟨3, ![4, 2048, 4096]⟩ : Shape).Idx → EReal) (w : (⟨2, ![4096, 4096]⟩ : Shape).Idx → EReal) :
    (⟨3, ![4, 2048, 4096]⟩ : Shape).Idx → EReal :=
  fun i => ∑ k : Fin 4096, x (ix3 (i 0) (i 1) k) * w (ix2 (i 2) k)

/-- A rank-2 array at row `r`, column `k` given as natural numbers. -/
def at2 {n0 n1 : Nat} (A : (⟨2, ![n0, n1]⟩ : Shape).Idx → EReal) (r k : Nat) : EReal :=
  if h : r < n0 ∧ k < n1 then A (ix2 ⟨r, h.1⟩ ⟨k, h.2⟩) else 0

theorem at2_ix2 {n0 n1 : Nat} (A : (⟨2, ![n0, n1]⟩ : Shape).Idx → EReal) (r : Fin n0) (k : Fin n1) :
    at2 A r.val k.val = A (ix2 r k) := by
  unfold at2
  rw [dif_pos ⟨r.isLt, k.isLt⟩]

/-- An entry whose coordinates are known as numbers. -/
theorem at2_of_val {n0 n1 : Nat} (A : (⟨2, ![n0, n1]⟩ : Shape).Idx → EReal) (i : (⟨2, ![n0, n1]⟩ : Shape).Idx) (r k : Nat)
    (hr : (i 0).val = r) (hk : (i 1).val = k) : A i = at2 A r k := by
  subst hr hk
  exact (congrArg A (eq_ix2 i)).trans (at2_ix2 A (i 0) (i 1)).symm

end Cert.Hand.Linear
-- ==== Proof.GridPoints.lean ====
/- The grid's 128 points in row-major order over (4 row tiles, 2 column tiles, 16 contraction blocks): point t has
   row tile t / 32, column tile (t / 16) % 2, contraction block t % 16. The activations' window follows (row tile,
   contraction block), the weights' (contraction block, column tile), the output's (row tile, column tile). -/
import proofs.«429604_j50663434223825_3_alg».proof.Proof.Gen.KernelIdeal.Points
import proofs.«429604_j50663434223825_3_alg».proof.Proof.Gen.KernelIdeal.Launch

set_option Elab.async false

namespace Cert.KernelIdeal.Running

open Idealize.ShloMosaic Cert.KernelIdeal Cert.KernelIdeal.Gen

/-- Which tiles point `t` works on: the printed index maps, decided over the 128 points. -/
theorem where_tiles : ∀ t : Fin cfg0.N, win0_0.index t (0 : Fin 2) = t.val / 32 ∧ win0_0.index t (1 : Fin 2) = t.val % 16
    ∧ win0_1.index t (0 : Fin 2) = t.val % 16 ∧ win0_1.index t (1 : Fin 2) = t.val / 16 % 2
    ∧ win0_2.index t (0 : Fin 2) = t.val / 32 ∧ win0_2.index t (1 : Fin 2) = t.val / 16 % 2 :=
  (by decide +kernel : ∀ t : Fin grid0.N, _)

theorem points_lt (t : Fin cfg0.N) : t.val < 128 := lt_of_lt_of_eq t.isLt (show cfg0.N = 128 from N_0)

end Cert.KernelIdeal.Running
-- ==== Proof.Tiles.lean ====
/- One grid point, at the extended reals. The grid is 4 row tiles x 2 column tiles x 16 contraction blocks, the
   contraction block moving fastest: point t works on row tile t / 32, column tile (t / 16) % 2 and contraction block
   t % 16. Its activation tile is rows [2048 (t/32), +2048) x columns [256 (t%16), +256) of the activations [8192, 4096];
   its weight tile is rows [256 (t%16), +256) x columns [2048 ((t/16)%2), +2048) of the weights [4096, 4096]. The first
   point of a reduction run leaves in the output tile, at (p, q), 0 plus its block's 256 products; every later point
   adds its block's 256 products to what the point before left. -/
import proofs.«429604_j50663434223825_3_alg».proof.Proof.Gen.KernelIdeal.Frame
import proofs.«429604_j50663434223825_3_alg».proof.Proof.TileProduct
import proofs.«429604_j50663434223825_3_alg».proof.Proof.Cases
import proofs.«429604_j50663434223825_3_alg».proof.Proof.Linear
import proofs.«429604_j50663434223825_3_alg».proof.Proof.GridPoints
import Idealize.ShloMosaic.Lib.Pipeline.Value

set_option Elab.async false

noncomputable section

namespace Cert.KernelIdeal.Running

open Idealize.ShloMosaic Idealize.ShloMosaic.TcCoe Idealize.SL.Sem Idealize.ShloMosaic.ValueIdx
open Idealize.ShloMosaic.Pipeline (Dat)
open Cert.KernelIdeal Cert.KernelIdeal.Gen Cert.Hand.Linear

variable (m : (ℓ : Loc nD τ sig) → Buf (Elt Ideal) ℓ)

/-- The activations [8192, 4096] and the weights [I, O] = [4096, 4096] as the region finds them, -/
abbrev rowsArr (c : Dev nD) : S8192x4096.Idx → EReal := V m c main_v8
abbrev colsArr (c : Dev nD) : S4096x4096.Idx → EReal := V m c main_v7
/-- a point's two input tiles, -/
abbrev rowsTile (c : Dev nD) (t : Fin cfg0.N) : S2048x256.Idx → EReal := iblk m c 0 t
abbrev colsTile (c : Dev nD) (t : Fin cfg0.N) : S256x2048.Idx → EReal := iblk m c 1 t
/-- and the output tile after point `n`. -/
abbrev outTile (c : Dev nD) (n : ℕ) (h : n < cfg0.N) : S2048x2048.Idx → EReal := outsAt0 m c n h

theorem outTile_point (c : Dev nD) {n n' : ℕ} (e : n = n') (h : n < cfg0.N) (h' : n' < cfg0.N) :
    outTile m c n h = outTile m c n' h' := by
  subst e; rfl

/-- Entry (p, j) of the activation window's tile at point `t`, of any array of the activations' shape. -/
theorem rows_read (A : S8192x4096.Idx → EReal) (t : Fin cfg0.N) (p : Fin 2048) (j : Fin 256) :
    (((cfg0.win 0).blk t).view.read (Elt Ideal) A : S2048x256.Idx → EReal) (ix2 p j)
      = at2 A (t.val / 32 * 2048 + p.val) (256 * (t.val % 16) + j.val) := by
  obtain ⟨e0, e1, -, -, -, -⟩ := where_tiles t
  show A (((cfg0.win 0).blk t).view.emb (ix2 p j)) = _
  exact at2_of_val (n0 := 8192) (n1 := 4096) A _ _ _
    (by show win0_0.index t (0 : Fin 2) * 2048 + 1 * p.val = _; rw [e0]; omega)
    (by show win0_0.index t (1 : Fin 2) * 256 + 1 * j.val = _; rw [e1]; omega)

/-- Entry (j, q) of the weight window's tile at point `t`, of any array of the weights' shape. -/
theorem cols_read (A : S4096x4096.Idx → EReal) (t : Fin cfg0.N) (j : Fin 256) (q : Fin 2048) :
    (((cfg0.win 1).blk t).view.read (Elt Ideal) A : S256x2048.Idx → EReal) (ix2 j q)
      = at2 A (256 * (t.val % 16) + j.val) (t.val / 16 % 2 * 2048 + q.val) := by
  obtain ⟨-, -, e2, e3, -, -⟩ := where_tiles t
  show A (((cfg0.win 1).blk t).view.emb (ix2 j q)) = _
  exact at2_of_val (n0 := 4096) (n1 := 4096) A _ _ _
    (by show win0_1.index t (0 : Fin 2) * 256 + 1 * j.val = _; rw [e2]; omega)
    (by show win0_1.index t (1 : Fin 2) * 2048 + 1 * q.val = _; rw [e3]; omega)

/-- Entry (p, j) of the activation tile of point `t`. -/
theorem rowsTile_apply (c : Dev nD) (t : Fin cfg0.N) (p : Fin 2048) (j : Fin 256) :
    rowsTile m c t (ix2 p j) = at2 (rowsArr m c) (t.val / 32 * 2048 + p.val) (256 * (t.val % 16) + j.val) :=
  rows_read (rowsArr m c) t p j

/-- Entry (j, q) of the weight tile of point `t`. -/
theorem colsTile_apply (c : Dev nD) (t : Fin cfg0.N) (j : Fin 256) (q : Fin 2048) :
    colsTile m c t (ix2 j q) = at2 (colsArr m c) (256 * (t.val % 16) + j.val) (t.val / 16 % 2 * 2048 + q.val) :=
  cols_read (colsArr m c) t j q

/-- The 256 products point `t` adds to entry (p, q), as entries of the two arrays. -/
theorem tile_products (c : Dev nD) (t : Fin cfg0.N) (p q : Fin 2048) :
    ∑ j : Fin 256, rowsTile m c t (ix2 p j) * colsTile m c t (ix2 j q)
      = ∑ j : Fin 256, at2 (rowsArr m c) (t.val / 32 * 2048 + p.val) (256 * (t.val % 16) + j.val)
          * at2 (colsArr m c) (256 * (t.val % 16) + j.val) (t.val / 16 % 2 * 2048 + q.val) :=
  Finset.sum_congr rfl fun j _ => by rw [rowsTile_apply, colsTile_apply]

/-- The first point of a run leaves 0 plus its block's products. -/
theorem point_first (c : Dev nD) (t : Fin cfg0.N) (h0 : t.val % 16 = 0) (p q : Fin 2048) :
    outTile m c t.val t.isLt (ix2 p q)
      = 0 + ∑ j : Fin 256, at2 (rowsArr m c) (t.val / 32 * 2048 + p.val) (256 * (t.val % 16) + j.val)
          * at2 (colsArr m c) (256 * (t.val % 16) + j.val) (t.val / 16 % 2 * 2048 + q.val) := by
  rw [← tile_products]
  show outsAt0 m c t.val t.isLt (ix2 p q) = _
  rw [outsAt0_A m c t h0]
  refine (congrFun (Cases.first (F := Ideal) c (grid0.coords t) (ms0_0 t) (hs0_0 t) (ms0_1 t) (hs0_1 t) (ms0_2 t) (hs0_2 t)
    ((hcond0_0 t).mpr h0) (iblk m c 0 t) (iblk m c 1 t)) (ix2 p q)).trans ?_
  refine (TileProduct.step_apply (rowsTile m c t) (k0_pay1 (F := Ideal)) (colsTile m c t) p q).trans ?_
  rw [TileProduct.zero_apply]

/-- A later point adds its block's products to what the point before left. -/
theorem point_later (c : Dev nD) (t : Fin cfg0.N) (h0 : ¬t.val % 16 = 0) (p q : Fin 2048) :
    outTile m c t.val t.isLt (ix2 p q)
      = outTile m c (t.val - 1) (Nat.lt_of_le_of_lt (Nat.sub_le _ _) t.isLt) (ix2 p q)
        + ∑ j : Fin 256, at2 (rowsArr m c) (t.val / 32 * 2048 + p.val) (256 * (t.val % 16) + j.val)
          * at2 (colsArr m c) (256 * (t.val % 16) + j.val) (t.val / 16 % 2 * 2048 + q.val) := by
  rw [← tile_products]
  show outsAt0 m c t.val t.isLt (ix2 p q) = _
  rw [outsAt0_B m c t h0]
  refine (congrFun (Cases.later (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix2 p q)).trans ?_
  exact TileProduct.step_apply (rowsTile m c t)
    (outTile m c (t.val - 1) (Nat.lt_of_le_of_lt (Nat.sub_le _ _) t.isLt)) (colsTile m c t) p q

end Cert.KernelIdeal.Running
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.Contraction.lean ====
/- The contraction axis of the product, 4096 long, cut into sixteen tiles of 256: column `p` of tile `t` is column
   `256 * t + p`. An entry that is zero plus the first tile's partial product after the first step, and gains one tile's
   partial product per step, holds after the sixteenth step the sum over all 4096 columns. Addition on the extended reals
   is commutative and associative, so no finiteness is needed for this. -/
import proofs.«429604_j50663434223825_3_alg».proof.Proof.LibTile

namespace Cert.Hand.Contraction

open Cert.Hand.LibTile

variable {M : Type*} [AddCommMonoid M]

/-- Column `p` of tile `t` is a column of the contraction axis. -/
theorem col_lt {t p : ℕ} (ht : t < 16) (hp : p < 256) : 256 * t + p < 4096 := tile_lt (m := 16) (n := 256) rfl ht hp

/-- Sixteen steps, one tile of 256 products each, started from zero: the whole sum of 4096 products. -/
theorem acc_tiles (f : Fin 4096 → M) (a : ℕ → M) (g : ℕ → Fin 256 → M)
    (hg : ∀ (t : ℕ) (ht : t < 16) (p : Fin 256), g t p = f ⟨256 * t + p.val, col_lt ht p.isLt⟩)
    (h0 : a 0 = 0 + ∑ p : Fin 256, g 0 p) (hs : ∀ k, k + 1 < 16 → a (k + 1) = a k + ∑ p : Fin 256, g (k + 1) p) :
    a 15 = ∑ r : Fin 4096, f r :=
  acc_last_eq_sum (m := 16) (n := 256) rfl (by decide) f a g hg h0 hs

end Cert.Hand.Contraction
-- ==== Proof.SixteenSteps.lean ====
/- A reduction run is sixteen consecutive points u, u + 1, …, u + 15 on one row tile and one column tile. The output
   tile is carried through them: 0 plus block 0's products, then one block's products more per point. After the
   sixteenth point entry (p, q) is the sum over all 4096 contraction columns k of x(r, k) * w(k, o), at the entry
   (r, o) of the whole product the tile's (p, q) is. -/
import proofs.«429604_j50663434223825_3_alg».proof.Proof.Tiles
import proofs.«429604_j50663434223825_3_alg».proof.Proof.Contraction
import Idealize.ShloMosaic.Lib.Pipeline.Value

noncomputable section

namespace Cert.KernelIdeal.Running

open Idealize.ShloMosaic Idealize.ShloMosaic.TcCoe Idealize.SL.Sem Idealize.ShloMosaic.ValueIdx
open Idealize.ShloMosaic.Pipeline (Dat)
open Cert.KernelIdeal Cert.KernelIdeal.Gen Cert.Hand.Linear

variable (m : (ℓ : Loc nD τ sig) → Buf (Elt Ideal) ℓ)

/-- Entry (r, o) of the whole product: the sum over the 4096 contraction columns. -/
def whole (c : Dev nD) (r o : ℕ) : EReal := ∑ k : Fin 4096, at2 (rowsArr m c) r k.val * at2 (colsArr m c) k.val o

/-- After the last point of a run the tile holds the whole product's entries. -/
theorem point_last (c : Dev nD) (t : Fin cfg0.N) (h15 : t.val % 16 = 15) (p q : Fin 2048) :
    outTile m c t.val t.isLt (ix2 p q) = whole m c (t.val / 32 * 2048 + p.val) (t.val / 16 % 2 * 2048 + q.val) := by
  have hN := points_lt t
  have hcN : cfg0.N = 128 := N_0
  -- the run's sixteen points are u, u + 1, …, u + 15 = t
  obtain ⟨u, hu⟩ : ∃ u, t.val = u + 15 := ⟨t.val - 15, by omega⟩
  have hlt : ∀ k, k < 16 → u + k < cfg0.N := fun k hk => by rw [hcN]; omega
  have key := Cert.Hand.Contraction.acc_tiles
    (f := fun r : Fin 4096 => at2 (rowsArr m c) (t.val / 32 * 2048 + p.val) r.val * at2 (colsArr m c) r.val (t.val / 16 % 2 * 2048 + q.val))
    (fun k => if h : u + k < cfg0.N then outTile m c (u + k) h (ix2 p q) else 0)
    (fun kk j => at2 (rowsArr m c) (t.val / 32 * 2048 + p.val) (256 * kk + j.val) * at2 (colsArr m c) (256 * kk + j.val) (t.val / 16 % 2 * 2048 + q.val))
    (fun _ _ _ => rfl)
    (by
      rw [dif_pos (hlt 0 (by omega))]
      have h := point_first m c ⟨u + 0, hlt 0 (by omega)⟩ (by dsimp only; omega) p q
      dsimp only at h
      rw [show (u + 0) / 32 = t.val / 32 from by omega, show (u + 0) % 16 = 0 from by omega,
        show (u + 0) / 16 % 2 = t.val / 16 % 2 from by omega] at h
      exact h)
    (fun k hk => by
      rw [dif_pos (hlt (k + 1) hk), dif_pos (hlt k (by omega))]
      have h := point_later m c ⟨u + (k + 1), hlt (k + 1) hk⟩ (by dsimp only; omega) p q
      dsimp only at h
      rw [show (u + (k + 1)) / 32 = t.val / 32 from by omega, show (u + (k + 1)) % 16 = k + 1 from by omega,
        show (u + (k + 1)) / 16 % 2 = t.val / 16 % 2 from by omega] at h
      rw [h, outTile_point m c (show u + (k + 1) - 1 = u + k from by omega) _ (hlt k (by omega))])
  rw [dif_pos (hlt 15 (by omega))] at key
  rw [outTile_point m c hu t.isLt (hlt 15 (by omega)), key]
  rfl

end Cert.KernelIdeal.Running
-- ==== Proof.ProductArray.lean ====
/- The product array [8192, 4096] after the region. Only the last point of each reduction run writes its output tile
   back, and that tile holds the whole product's entries; the 4 x 2 tiles written back cover the array. So the array
   ends, at (r, o), at the sum over k of x(r, k) * w(k, o). -/
import proofs.«429604_j50663434223825_3_alg».proof.Proof.SixteenSteps
import Idealize.ShloMosaic.Lib.Pipeline.Value

noncomputable section

namespace Cert.KernelIdeal.Running

open Idealize.ShloMosaic Idealize.ShloMosaic.TcCoe Idealize.SL.Sem Idealize.ShloMosaic.ValueIdx
open Idealize.ShloMosaic.Pipeline (Dat)
open Cert.KernelIdeal Cert.KernelIdeal.Gen Cert.Hand.Linear

variable (m : (ℓ : Loc nD τ sig) → Buf (Elt Ideal) ℓ)

/-! ## The product array after the region -/

/-- The whole product as contents of the result array [8192, 4096]. -/
abbrev productArr (c : Dev nD) : S8192x4096.Idx → EReal := fun i => whole m c (i 0).val (i 1).val

/-- What a writing point writes back is its tile of the whole product. -/
theorem flushed_eq (c : Dev nD) (t : Fin cfg0.N) (hf : (cfg0.win 2).flush t = true) :
    (dats m 0 c).flushed 2 t = ((cfg0.win 2).blk t).view.read (Elt Ideal) (productArr m c) := by
  have h15 : t.val % 16 = 15 := (flush0_2 t).mp hf
  obtain ⟨-, -, -, -, e4, e5⟩ := where_tiles t
  show (cfg0.win 2).cut (grid0.coords t) ((dats m 0 c).after 2 t) = _
  rw [after0_2]
  funext y
  obtain ⟨p, q, rfl⟩ : ∃ (p q : Fin 2048), y = ix2 p q := ⟨y 0, y 1, eq_ix2 y⟩
  show outTile m c t.val t.isLt (ix2 p q) = productArr m c (((cfg0.win 2).blk t).view.emb (ix2 p q))
  rw [point_last m c t h15 p q]
  show _ = whole m c ((((cfg0.win 2).blk t).view.emb (ix2 p q)) 0).val ((((cfg0.win 2).blk t).view.emb (ix2 p q)) 1).val
  have r0 : ((((cfg0.win 2).blk t).view.emb (ix2 p q)) 0).val = t.val / 32 * 2048 + p.val := by
    show win0_2.index t (0 : Fin 2) * 2048 + 1 * p.val = _; rw [e4]; omega
  have r1 : ((((cfg0.win 2).blk t).view.emb (ix2 p q)) 1).val = t.val / 16 % 2 * 2048 + q.val := by
    show win0_2.index t (1 : Fin 2) * 2048 + 1 * q.val = _; rw [e5]; omega
  rw [r0, r1]

/-- Every entry of the array lies in the tile some writing point writes back. -/
theorem covered (c : Dev nD) (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hcN : cfg0.N = 128 := N_0
  let t : Fin cfg0.N := ⟨(i 0).val / 2048 * 32 + (i 1).val / 2048 * 16 + 15, by rw [hcN]; omega⟩
  have htv : t.val = (i 0).val / 2048 * 32 + (i 1).val / 2048 * 16 + 15 := rfl
  obtain ⟨-, -, -, -, e4, e5⟩ := where_tiles t
  refine ⟨t, (flush0_2 t).mpr (by rw [htv]; omega), ?_⟩
  show i ∈ ((View.whole main_v9).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e4, htv]; omega
  | ⟨1, _⟩ =>
    show win0_2.index t (1 : Fin 2) * 2048 ≤ (i 1).val ∧ (i 1).val < win0_2.index t (1 : Fin 2) * 2048 + 2048
    rw [e5, htv]; omega

/-- So the product array ends holding the whole product. -/
theorem final (c : Dev nD) : (dats m 0 c).arrAt 2 cfg0.N = productArr m c :=
  (dats m 0 c).arrAt_eq_of_cover 2 (productArr m c) (flushed_eq m c) (covered c)

end Cert.KernelIdeal.Running
-- ==== Proof.Weights.lean ====
/- The host arithmetic between the index arrays and the matrix product, as terms. From the packed table index
   `base * 256 + fine` both programs move a negative index up by the table's length and look the table up at the result
   (the lookup clamps its start index); the kernel only keeps the looked-up value where the moved index passes
   `0 ≤ · ≤ 65535` and puts a not-a-number elsewhere. The looked-up value times the per-row scale is the weight array
   [O, I]; the kernel hands the product its transpose [I, O] (the change of float format in between is the identity on the
   extended reals).
   Where every packed index lies in [0, 65536) it is not negative, so it is not moved, and it passes both tests: the
   guard keeps every looked-up value, and the kernel's weights are the reference's, entry by entry, as ONE term in the
   lookup, which is therefore never opened. -/
import proofs.«429604_j50663434223825_3_alg».proof.Proof.Gen.KernelIdeal
import Idealize.ShloMosaic.Lib.ValueIdx
import Idealize.ShloMosaic.Lib.Pipeline.Value
import Idealize.ShloMosaic.Lib.Affine
import Idealize.ShloMosaic.PureOps.Reduce

noncomputable section

namespace Cert.KernelIdeal.Weights

open Idealize.ShloMosaic Idealize.ShloMosaic.ValueIdx
open Cert.KernelIdeal Cert.KernelIdeal.Gen

variable {F : FTy → Type} [FloatOps F]

/-! ## The terms -/

/-- The packed table index `base * 256 + fine`, in 32-bit words. -/
abbrev packed (b f : IVec S4096x4096 32) : IVec S4096x4096 32 :=
  addi (muli b (broadcastInDim S4096x4096 ![] bcast_S_S4096x4096 (constantI S_ 32 256#32))) f

/-- A negative index moved up by the table's length, as indexing from the end does. -/
abbrev moved (cw : IVec S4096x4096 32) : IVec S4096x4096 32 :=
  select (cmpi .slt cw (broadcastInDim S4096x4096 ![] bcast_S_S4096x4096 (constantI S_ 32 0#32)))
    (addi cw (broadcastInDim S4096x4096 ![] bcast_S_S4096x4096 (constantI S_ 32 65536#32))) cw

/-- The lookup's start indices: the moved index with a unit axis added. -/
abbrev starts (cw : IVec S4096x4096 32) : IVec S4096x4096x1 32 :=
  broadcastInDim S4096x4096x1 ![0, 1] bcast_S4096x4096_S4096x4096x1_0_1 (moved cw)

/-- The table looked up at the start indices. -/
abbrev looked (l : FVec F S65536 .f32) (cw : IVec S4096x4096 32) : FVec F S4096x4096 .f32 :=
  Host.gather gather_S65536_S4096x4096x1_S4096x4096_n_0_n_n_0_2_1 l (starts cw)

/-- The kernel's test that a start index lies inside the table. -/
abbrev inside (cw : IVec S4096x4096 32) : IVec S4096x4096 1 :=
  Host.reduce IntOp.andi
    (andi (cmpi .sge (starts cw) (broadcastInDim S4096x4096x1 ![] bcast_S_S4096x4096x1 (constantI S_ 32 0#32)))
      (cmpi .sle (starts cw) (broadcastInDim S4096x4096x1 ![0, 1, 2] bcast_S1x1x1_S4096x4096x1_0_1_2
        (broadcastInDim S1x1x1 ![2] bcast_S1_S1x1x1_2 (constantI S1 32 65535#32)))))
    (constantI S_ 1 1#1) reducesTo_S4096x4096x1_S4096x4096_d2 h_S_

/-- The kernel's guarded lookup: the looked-up value inside the table, a not-a-number outside. -/
abbrev guarded (l : FVec F S65536 .f32) (cw : IVec S4096x4096 32) : FVec F S4096x4096 .f32 :=
  select (inside cw) (looked l cw) (broadcastInDim S4096x4096 ![] bcast_S_S4096x4096 (constant S_ .f32 0x7FC00000#32))

/-- The per-row scale laid along each row. -/
abbrev scales (s : FVec F S4096x1 .f32) : FVec F S4096x4096 .f32 :=
  broadcastInDim S4096x4096 ![0, 1] bcast_S4096x1_S4096x4096_0_1 s

/-- The weight array [O, I] without the guard: what the reference multiplies by. -/
abbrev weights (l : FVec F S65536 .f32) (cw : IVec S4096x4096 32) (s : FVec F S4096x1 .f32) : FVec F S4096x4096 .f32 :=
  mulf (looked l cw) (scales s)

/-- The array [I, O] the kernel's product reads, from a weight array [O, I]: re-formatted and transposed. -/
abbrev handedOf (w : FVec F S4096x4096 .f32) : FVec F S4096x4096 .bf16 :=
  transpose S4096x4096 [1, 0] (truncf .bf16 w bitsLt_bf16_f32) transposes_S4096x4096_S4096x4096_1_0

/-- The array handed to the kernel's product: from the guarded weights. -/
abbrev handed (l : FVec F S65536 .f32) (cw : IVec S4096x4096 32) (s : FVec F S4096x1 .f32) : FVec F S4096x4096 .bf16 :=
  handedOf (mulf (guarded l cw) (scales s))

/-! ## The guard drops out where the packed index is in range -/

/-- At one word: a word in [0, 65536) read signed is not moved, and passes both of the guard's tests. -/
theorem word_passes (w : BitVec 32) (h0 : 0 ≤ w.toInt) (h1 : w.toInt < 65536) :
    IntOp.andi (IntOp.cmpi .sge (Scalar.select (IntOp.cmpi .slt w 0#32) (IntOp.addi w 65536#32) w) 0#32)
      (IntOp.cmpi .sle (Scalar.select (IntOp.cmpi .slt w 0#32) (IntOp.addi w 65536#32) w) 65535#32) = 1#1 := by
  have hz : (0#32 : BitVec 32).toInt = 0 := by decide
  have hm : (65535#32 : BitVec 32).toInt = 65535 := by decide
  have hs : IntOp.cmpi .slt w 0#32 = 0#1 := eq_zero_of_ne_one fun h => by
    have := IntOp.cmpi_slt.1 h
    rw [hz] at this
    omega
  rw [hs, select_zero]
  exact IntOp.andi_eq_one.2 ⟨IntOp.cmpi_sge.2 (by rw [hz]; exact h0), IntOp.cmpi_sle.2 (by rw [hm]; omega)⟩

/-- A fold by `and` from 1 over words that are all 1 is 1. -/
theorem foldl_andi_ones {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self]
    exact foldl_andi_ones g l fun n hn => h n (List.mem_cons_of_mem _ hn)

/-- So where every packed index is in range the test holds at every entry, -/
theorem inside_one (cw : IVec S4096x4096 32) (hr : ∀ i, 0 ≤ (cw i).toInt ∧ (cw i).toInt < 65536)
    (i : S4096x4096.Idx) : inside cw i = 1#1 := by
  unfold inside
  rw [Host.reduce_eq_foldl]
  refine foldl_andi_ones _ _ fun j _ => ?_
  have hj : starts cw j = moved cw (ix2 (j 0) (j 1)) :=
    broadcastInDim_apply _ bcast_S4096x4096_S4096x4096x1_0_1 (moved cw) j (ix2 (j 0) (j 1)) (fun a => match a with
      | ⟨0, _⟩ => by show (j 0).val = if (4096 : Nat) = 1 then 0 else (j 0).val; rw [if_neg (by decide)]
      | ⟨1, _⟩ => by show (j 1).val = if (4096 : Nat) = 1 then 0 else (j 1).val; rw [if_neg (by decide)])
  show IntOp.andi (IntOp.cmpi .sge (starts cw j) 0#32) (IntOp.cmpi .sle (starts cw j) 65535#32) = 1#1
  rw [hj]
  exact word_passes (cw (ix2 (j 0) (j 1))) (hr _).1 (hr _).2

/-- the guard keeps every looked-up value, -/
theorem guarded_eq (l : FVec F S65536 .f32) (cw : IVec S4096x4096 32)
    (hr : ∀ i, 0 ≤ (cw i).toInt ∧ (cw i).toInt < 65536) : guarded l cw = looked l cw := by
  funext i
  show Scalar.select (inside cw i) (looked l cw i) _ = looked l cw i
  rw [inside_one cw hr i, select_one]

/-- and entry (k, o) of the array handed to the product, at the extended reals, is the weight of output `o`, input `k`. -/
theorem handed_apply (l : FVec Ideal S65536 .f32) (cw : IVec S4096x4096 32) (s : FVec Ideal S4096x1 .f32)
    (hr : ∀ i, 0 ≤ (cw i).toInt ∧ (cw i).toInt < 65536) (k o : Fin 4096) :
    handed l cw s (ix2 k o) = weights l cw s (ix2 o k) := by
  unfold handed
  rw [guarded_eq l cw hr]
  exact transpose_apply [1, 0] _ transposes_S4096x4096_S4096x4096_1_0 (ix2 k o) (ix2 o k) (fun a => match a with
    | ⟨0, _⟩ => rfl
    | ⟨1, _⟩ => rfl)

end Cert.KernelIdeal.Weights
-- ==== Proof.HostEnds.lean ====
/- The two short stretches of host operations around the table lookup, at the extended reals, each read over whatever
   buffer contents it starts from: before it the packed index `base * 256 + fine`; after it the scaling of the looked-up
   values by the per-row scale, the change of format, the transpose, and the activations re-laid as [8192, 4096]. -/
import proofs.«429604_j50663434223825_3_alg».proof.Proof.Gen.KernelIdeal.Frame
import proofs.«429604_j50663434223825_3_alg».proof.Proof.Weights
import Idealize.ShloMosaic.Lib.StableHlo.Run

set_option maxRecDepth 16384
set_option Elab.async false

noncomputable section

namespace Cert.KernelIdeal.HostEnds

open Idealize.ShloMosaic Idealize.ShloMosaic.TcCoe Idealize.SL.Sem Idealize.ShloMosaic.StableHlo
open Cert.KernelIdeal Cert.KernelIdeal.Gen Cert.KernelIdeal.Weights

variable (W : Valuation τ sig (Elt Ideal))

/-! ## The first stretch: the packed index -/

theorem packs :
    (after hostOps0 W (Proc.devRef .tc main_v2) : S4096x4096.Idx → BitVec 32)
      = packed (W (Proc.devRef .tc main_arg1)) (W (Proc.devRef .tc main_arg2)) := by
  after_results
  all_goals rfl

theorem packs_keeps_rows : after hostOps0 W (Proc.devRef .tc main_arg0) = W (Proc.devRef .tc main_arg0) := by
  after_results
  all_goals rfl
theorem packs_keeps_scale : after hostOps0 W (Proc.devRef .tc main_arg3) = W (Proc.devRef .tc main_arg3) := by
  after_results
  all_goals rfl
theorem packs_keeps_table : after hostOps0 W (Proc.devRef .tc main_arg4) = W (Proc.devRef .tc main_arg4) := by
  after_results
  all_goals rfl

/-! ## The third stretch: scale, re-format, transpose; re-lay the activations -/

theorem hands :
    (after hostOps0_2 W (Proc.devRef .tc main_v7) : S4096x4096.Idx → EReal)
      = handedOf (F := Ideal) (mulf (W (Proc.devRef .tc main_v3)) (scales (W (Proc.devRef .tc main_arg3)))) := by
  after_results
  all_goals rfl

theorem relays :
    (after hostOps0_2 W (Proc.devRef .tc main_v8) : S8192x4096.Idx → EReal)
      = shapeCast S8192x4096 (W (Proc.devRef .tc main_arg0)) shapeCasts_S4x2048x4096_S8192x4096 := by
  after_results
  all_goals rfl

end Cert.KernelIdeal.HostEnds
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«429604_j50663434223825_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.HostLookup.lean ====
/- The guarded table lookup, read buffer by buffer at the extended reals. The called function's twenty-two operations
   each write a buffer of their own, in table order, so each buffer's contents after the whole stretch are its operation
   applied to the contents, after the whole stretch, of the buffers it reads. Chained from the last operation back to the
   two buffers the stretch only reads (the packed index and the table), the result is the guarded lookup of those two. -/
import proofs.«429604_j50663434223825_3_alg».proof.Proof.Gen.KernelIdeal.Frame
import proofs.«429604_j50663434223825_3_alg».proof.Proof.Weights
import proofs.«429604_j50663434223825_3_alg».proof.Proof.LibHostRank
import Idealize.ShloMosaic.Lib.StableHlo.Run

set_option maxRecDepth 16384
set_option Elab.async false

noncomputable section

namespace Cert.KernelIdeal.HostLookup

open Idealize.ShloMosaic Idealize.ShloMosaic.TcCoe Idealize.SL.Sem Idealize.ShloMosaic.StableHlo
open Cert.KernelIdeal Cert.KernelIdeal.Gen Cert.KernelIdeal.Weights Cert.HostRead

/-- A buffer's rank: its index in its table. -/
abbrev rank (b : DevRef τ sig) : Nat := b.idx.val

/-- Operation number p of the stretch writes the buffer of index 9 + p and reads only buffers of smaller index. -/
theorem lookup_ranked : Ranked rank 9 (hostOps0_1 : List (HloOp τ sig (Elt Ideal))) := by decide +kernel

theorem lookup_fresh : Fresh (hostOps0_1 : List (HloOp τ sig (Elt Ideal))) := Ranked.fresh rank 9 _ lookup_ranked

variable (W : Valuation τ sig (Elt Ideal))

/-- The buffers the stretch only reads keep their contents. -/
theorem kept_packed : after hostOps0_1 W (Proc.devRef .tc main_v2) = W (Proc.devRef .tc main_v2) :=
  Ranked.after_of_lt rank 9 _ lookup_ranked W _ (by decide)
theorem kept_table : after hostOps0_1 W (Proc.devRef .tc main_arg4) = W (Proc.devRef .tc main_arg4) :=
  Ranked.after_of_lt rank 9 _ lookup_ranked W _ (by decide)
theorem kept_rows : after hostOps0_1 W (Proc.devRef .tc main_arg0) = W (Proc.devRef .tc main_arg0) :=
  Ranked.after_of_lt rank 9 _ lookup_ranked W _ (by decide)
theorem kept_scale : after hostOps0_1 W (Proc.devRef .tc main_arg3) = W (Proc.devRef .tc main_arg3) :=
  Ranked.after_of_lt rank 9 _ lookup_ranked W _ (by decide)

/-! ## Each buffer from the buffers its operation reads -/

theorem r0 : after hostOps0_1 W (Proc.devRef .tc main_call0_c)
    = constantI S_ 32 0#32 :=
  read_nullary lookup_fresh 0 (hop := rfl)
theorem r1 : after hostOps0_1 W (Proc.devRef .tc main_call0_v0)
    = broadcastInDim S4096x4096 ![] bcast_S_S4096x4096 (after hostOps0_1 W (Proc.devRef .tc main_call0_c)) :=
  read_unary lookup_fresh 1 (hop := rfl)
theorem r2 : after hostOps0_1 W (Proc.devRef .tc main_call0_v1)
    = cmpi .slt (after hostOps0_1 W (Proc.devRef .tc main_v2)) (after hostOps0_1 W (Proc.devRef .tc main_call0_v0)) :=
  read_binary lookup_fresh 2 (hop := rfl)
theorem r3 : after hostOps0_1 W (Proc.devRef .tc main_call0_c_0)
    = constantI S_ 32 65536#32 :=
  read_nullary lookup_fresh 3 (hop := rfl)
theorem r4 : after hostOps0_1 W (Proc.devRef .tc main_call0_v2)
    = broadcastInDim S4096x4096 ![] bcast_S_S4096x4096 (after hostOps0_1 W (Proc.devRef .tc main_call0_c_0)) :=
  read_unary lookup_fresh 4 (hop := rfl)
theorem r5 : after hostOps0_1 W (Proc.devRef .tc main_call0_v3)
    = addi (after hostOps0_1 W (Proc.devRef .tc main_v2)) (after hostOps0_1 W (Proc.devRef .tc main_call0_v2)) :=
  read_binary lookup_fresh 5 (hop := rfl)
theorem r6 : after hostOps0_1 W (Proc.devRef .tc main_call0_v4)
    = select (after hostOps0_1 W (Proc.devRef .tc main_call0_v1)) (after hostOps0_1 W (Proc.devRef .tc main_call0_v3)) (after hostOps0_1 W (Proc.devRef .tc main_v2)) :=
  read_ternary lookup_fresh 6 (hop := rfl)
theorem r7 : after hostOps0_1 W (Proc.devRef .tc main_call0_v5)
    = broadcastInDim S4096x4096x1 ![0, 1] bcast_S4096x4096_S4096x4096x1_0_1 (after hostOps0_1 W (Proc.devRef .tc main_call0_v4)) :=
  read_unary lookup_fresh 7 (hop := rfl)
theorem r18 : after hostOps0_1 W (Proc.devRef .tc main_call0_v13)
    = Host.gather gather_S65536_S4096x4096x1_S4096x4096_n_0_n_n_0_2_1 (after hostOps0_1 W (Proc.devRef .tc main_arg4)) (after hostOps0_1 W (Proc.devRef .tc main_call0_v5)) :=
  read_binary (a := main_arg4) (b := main_call0_v5) (y := main_call0_v13) lookup_fresh 18 (hop := rfl)
theorem r19 : after hostOps0_1 W (Proc.devRef .tc main_call0_cst)
    = constant (F := Ideal) S_ .f32 0x7FC00000#32 :=
  read_nullary lookup_fresh 19 (hop := rfl)
theorem r20 : after hostOps0_1 W (Proc.devRef .tc main_call0_v14)
    = broadcastInDim S4096x4096 ![] bcast_S_S4096x4096 (after hostOps0_1 W (Proc.devRef .tc main_call0_cst)) :=
  read_unary lookup_fresh 20 (hop := rfl)
theorem r21 : after hostOps0_1 W (Proc.devRef .tc main_v3)
    = select (after hostOps0_1 W (Proc.devRef .tc main_call0_v12)) (after hostOps0_1 W (Proc.devRef .tc main_call0_v13)) (after hostOps0_1 W (Proc.devRef .tc main_call0_v14)) :=
  read_ternary lookup_fresh 21 (hop := rfl)

/-! ## Chained -/

/-- The moved index's buffer. -/
theorem moved_eq : after hostOps0_1 W (Proc.devRef .tc main_call0_v4) = moved (W (Proc.devRef .tc main_v2)) := by
  rw [r6, r2, r1, r0, r5, r4, r3, kept_packed]

/-- The start indices' buffer. -/
theorem starts_eq : after hostOps0_1 W (Proc.devRef .tc main_call0_v5) = starts (W (Proc.devRef .tc main_v2)) := by
  rw [r7, moved_eq]

set_option maxHeartbeats 1600000 in
/-- The test's buffer, read off the whole stretch at once. -/
theorem inside_eq : after hostOps0_1 W (Proc.devRef .tc main_call0_v12) = inside (W (Proc.devRef .tc main_v2)) := by
  after_results
  simp only [cast_eq]
  all_goals rfl

/-- The looked-up values' buffer. -/
theorem looked_eq : after hostOps0_1 W (Proc.devRef .tc main_call0_v13) = looked (F := Ideal) (W (Proc.devRef .tc main_arg4)) (W (Proc.devRef .tc main_v2)) := by
  rw [r18, starts_eq, kept_table]

/-- The stretch's result: the guarded lookup. -/
theorem looks_up : (after hostOps0_1 W (Proc.devRef .tc main_v3) : S4096x4096.Idx → EReal)
    = guarded (F := Ideal) (W (Proc.devRef .tc main_arg4)) (W (Proc.devRef .tc main_v2)) := by
  rw [r21, inside_eq, looked_eq, r20, r19]

end Cert.KernelIdeal.HostLookup
-- ==== Proof.HostLine.lean ====
/- What the region finds in its two input arrays, at the extended reals. The host operations before the region come in
   three stretches: the packed index; the guarded table lookup (a called function, inlined); the scaling, the change of
   format, the transpose, and the re-laying of the activations. Each stretch was read over whatever buffer contents it
   starts from; here they are put end to end from the launch memory. -/
import proofs.«429604_j50663434223825_3_alg».proof.Proof.HostEnds
import proofs.«429604_j50663434223825_3_alg».proof.Proof.HostLookup
import Idealize.ShloMosaic.Lib.Pipeline.Frame

set_option maxRecDepth 16384
set_option Elab.async false

noncomputable section

namespace Cert.KernelIdeal.HostLine

open Idealize.ShloMosaic Idealize.ShloMosaic.TcCoe Idealize.SL.Sem Idealize.ShloMosaic.StableHlo
open Cert.KernelIdeal Cert.KernelIdeal.Gen Cert.KernelIdeal.Weights Cert.KernelIdeal.HostEnds Cert.KernelIdeal.HostLookup

variable (m : (ℓ : Loc nD τ sig) → Buf (Elt Ideal) ℓ)

theorem prefix_eq : (List.flatten [hostOps0, hostOps0_1, hostOps0_2] : List (HloOp τ sig (Elt Ideal)))
    = hostOps0 ++ (hostOps0_1 ++ hostOps0_2) := by
  simp only [List.flatten_cons, List.flatten_nil, List.append_nil]

/-- The weight operand as the region finds it. -/
theorem entry_weights (c : Dev nD) :
    (V m c main_v7 : S4096x4096.Idx → EReal)
      = handed (F := Ideal) (m ((c : Thread nD τ).loc main_arg4))
          (packed (m ((c : Thread nD τ).loc main_arg1)) (m ((c : Thread nD τ).loc main_arg2)))
          (m ((c : Thread nD τ).loc main_arg3)) := by
  show after (List.flatten [hostOps0, hostOps0_1, hostOps0_2]) (fun b => m (c, b)) (Proc.devRef .tc main_v7) = _
  rw [prefix_eq, StableHlo.after_append, StableHlo.after_append, hands, looks_up, kept_scale,
    packs, packs_keeps_scale, packs_keeps_table]

/-- The activations as the region finds them: the argument re-laid as [8192, 4096]. -/
theorem entry_rows (c : Dev nD) :
    (V m c main_v8 : S8192x4096.Idx → EReal)
      = shapeCast S8192x4096 (m ((c : Thread nD τ).loc main_arg0)) shapeCasts_S4x2048x4096_S8192x4096 := by
  show after (List.flatten [hostOps0, hostOps0_1, hostOps0_2]) (fun b => m (c, b)) (Proc.devRef .tc main_v8) = _
  rw [prefix_eq, StableHlo.after_append, StableHlo.after_append, relays, kept_rows, packs_keeps_rows]

end Cert.KernelIdeal.HostLine
-- ==== Proof.KernelValue.lean ====
/- The kernel's result, at the extended reals. After the region the product array [8192, 4096] is re-laid as
   [4, 2048, 4096]: entry (b, s, o) of the result is entry (2048 b + s, o) of the product, the sum over k of the
   activations at (2048 b + s, k) — which is x[b, s, k], the activations being the argument re-laid — times the array handed
   to the product at (k, o) — which, where every packed table index is in range, is the weight w[o, k]. So the result is the
   linear layer of the argument and the unguarded weights. -/
import proofs.«429604_j50663434223825_3_alg».proof.Proof.ProductArray
import proofs.«429604_j50663434223825_3_alg».proof.Proof.HostLine
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Hand.Linear Cert.KernelIdeal.Running Cert.KernelIdeal.Weights Cert.KernelIdeal.HostLine

variable (m : (ℓ : Loc nD τ sig) → Buf (Elt Ideal) ℓ) (ρ : Dev nD → PrngReg)

/-- The arguments as the kernel's launch memory holds them. -/
abbrev argX (c : Dev nD) : S4x2048x4096.Idx → EReal := m ((c : Thread nD τ).loc main_arg0)
abbrev argBase (c : Dev nD) : IVec S4096x4096 32 := m ((c : Thread nD τ).loc main_arg1)
abbrev argFine (c : Dev nD) : IVec S4096x4096 32 := m ((c : Thread nD τ).loc main_arg2)
abbrev argScale (c : Dev nD) : S4096x1.Idx → EReal := m ((c : Thread nD τ).loc main_arg3)
abbrev argLut (c : Dev nD) : S65536.Idx → EReal := m ((c : Thread nD τ).loc main_arg4)

/-- The packed table index is in range at every entry (what the precondition gives). -/
def InRange (c : Dev nD) : Prop :=
  ∀ i, 0 ≤ (packed (argBase m c) (argFine m c) i).toInt ∧ (packed (argBase m c) (argFine m c) i).toInt < 65536

theorem rowsArr_eq (c : Dev nD) :
    rowsArr m c = shapeCast S8192x4096 (argX m c) Gen.shapeCasts_S4x2048x4096_S8192x4096 := entry_rows m c

theorem colsArr_eq (c : Dev nD) :
    colsArr m c = handed (F := Ideal) (argLut m c) (packed (argBase m c) (argFine m c)) (argScale m c) := entry_weights m c

/-- The activations at (2048 b + s, k) are x[b, s, k]. -/
theorem rows_entry (c : Dev nD) (i : S4x2048x4096.Idx) (k : Fin 4096) :
    at2 (rowsArr m c) ((i 0).val * 2048 + (i 1).val) k.val = argX m c (ix3 (i 0) (i 1) k) := by
  have h0 : (i 0).val < 4 := (i 0).isLt
  have h1 : (i 1).val < 2048 := (i 1).isLt
  rw [show at2 (rowsArr m c) ((i 0).val * 2048 + (i 1).val) k.val
      = rowsArr m c (ix2 (⟨(i 0).val * 2048 + (i 1).val, by omega⟩ : Fin 8192) k) from at2_ix2 (rowsArr m c) ⟨_, _⟩ k]
  rw [rowsArr_eq]
  refine shapeCast_apply (argX m c) Gen.shapeCasts_S4x2048x4096_S8192x4096 _ (ix3 (i 0) (i 1) k) ?_
  rw [Shape.rowMajor_val_three, Shape.rowMajor_val_two]
  rfl

/-- The array handed to the product at (k, o) is the weight w[o, k]. -/
theorem cols_entry (c : Dev nD) (hr : InRange m c) (k o : Fin 4096) :
    at2 (colsArr m c) k.val o.val = weights (F := Ideal) (argLut m c) (packed (argBase m c) (argFine m c)) (argScale m c) (ix2 o k) := by
  rw [at2_ix2, colsArr_eq]
  exact handed_apply _ _ _ hr k o

/-- The product array re-laid is the linear layer. -/
theorem result_eq (c : Dev nD) (hr : InRange m c) :
    shapeCast S4x2048x4096 (productArr m c) Gen.shapeCasts_S8192x4096_S4x2048x4096
      = linear (argX m c) (weights (F := Ideal) (argLut m c) (packed (argBase m c) (argFine m c)) (argScale m c)) := by
  funext i
  have h0 : (i 0).val < 4 := (i 0).isLt
  have h1 : (i 1).val < 2048 := (i 1).isLt
  refine (shapeCast_apply (productArr m c) Gen.shapeCasts_S8192x4096_S4x2048x4096 i
    (ix2 (⟨(i 0).val * 2048 + (i 1).val, by omega⟩ : Fin 8192) (i 2)) ?_).trans ?_
  · rw [Shape.rowMajor_val_three, Shape.rowMajor_val_two]
    rfl
  · show whole m c ((i 0).val * 2048 + (i 1).val) (i 2).val = _
    unfold whole linear
    exact Finset.sum_congr rfl fun k _ => by
      rw [rows_entry]
      exact congrArg (fun z => argX m c (ix3 (i 0) (i 1) k) * z) (cols_entry m c hr k (i 2))

/-- The host operation after the region re-lays the product array. -/
theorem tail_eq (c : Dev nD) :
    (Pipeline.afterTail₀ cfgs (dats m) 0 (V0 m) [hostOps1] c main_v10 : S4x2048x4096.Idx → EReal)
      = shapeCast S4x2048x4096 (productArr m c) Gen.shapeCasts_S8192x4096_S4x2048x4096 := by
  unfold Pipeline.afterTail₀
  show StableHlo.after hostOps1 _ (Proc.devRef .tc main_v10) = _
  after_results
  exact congrArg (fun A => shapeCast S4x2048x4096 A Gen.shapeCasts_S8192x4096_S4x2048x4096)
    ((Pipeline.withArrays_arr spec0 launch0.win.arr_inj c _ _ 2).trans (Running.final m c))

/-- The run, read: the result at the linear layer of the arguments, the arguments unchanged. -/
theorem run (hr : ∀ c, InRange m c) : θ_run defs (onTc (τ := τ) (main (F := Ideal))) ⟨m, fun _ => 0, ρ⟩ fun r => ∀ c : Dev nD,
      r.2.mem ((c.tc : Thread nD τ).loc main_v10) = linear (argX m c) (weights (F := Ideal) (argLut m c) (packed (argBase m c) (argFine m c)) (argScale m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans ((tail_eq m c).trans (result_eq m c (hr c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue
-- ==== Proof.RefProduct.lean ====
/- The reference's result at an index: its one `dot_general` contracts the activations' last axis with the weights' input
   axis, so entry (b, s, o) is the sum over k of x[b, s, k] * w[o, k] — the linear layer of its weight array. -/
import proofs.«429604_j50663434223825_3_alg».proof.Proof.Gen.ReferenceIdeal.Read
import proofs.«429604_j50663434223825_3_alg».proof.Proof.Linear

noncomputable section

namespace Cert.ReferenceIdeal.RefProduct

open Idealize.ShloMosaic Idealize.ShloMosaic.ValueIdx Cert.ReferenceIdeal Cert.ReferenceIdeal.Read Cert.Hand.Linear

/-- The reference's product is the linear layer of its activations and its weight stage. -/
theorem product_eq (x0 : (⟨S4x2048x4096, .f32⟩ : BufTy).Contents (Elt Ideal)) (x1 x2 : (⟨S4096x4096, .i32⟩ : BufTy).Contents (Elt Ideal))
    (x3 : (⟨S4096x1, .f32⟩ : BufTy).Contents (Elt Ideal)) (x4 : (⟨S65536, .f32⟩ : BufTy).Contents (Elt Ideal)) :
    val_main_v12 (F := Ideal) x0 x1 x2 x3 x4 = linear x0 (val_main_v11 (F := Ideal) x1 x2 x3 x4) := by
  funext i
  rw [val_main_v12_apply]
  have el : ∀ k : Fin 4096, lidx_main_v12 i k = ix3 (i 0) (i 1) k := fun k => funext fun a => Fin.ext (by
    match a with
    | ⟨0, _⟩ => rfl
    | ⟨1, _⟩ => rfl
    | ⟨2, _⟩ => rfl)
  have er : ∀ k : Fin 4096, ridx_main_v12 i k = ix2 (i 2) k := fun k => funext fun a => Fin.ext (by
    match a with
    | ⟨0, _⟩ => rfl
    | ⟨1, _⟩ => rfl)
  simp only [el, er]
  rfl

end Cert.ReferenceIdeal.RefProduct
-- ==== Proof.lean ====
/- A linear layer with looked-up weights. Both programs form the packed table index `base * 256 + fine`, move a negative
   index up by the table's length 65536, look a 65536-entry table up at it, scale each row, and multiply:
   out[b, s, o] = sum over k of x[b, s, k] * w[o, k]. The kernel's lookup writes a not-a-number where the index is outside
   the table while the reference's clamps, so the two agree exactly where the packed index is in range, which is what
   the precondition's last conjunct says; there the kernel's guard keeps every looked-up value and the two weight arrays
   are one term (Weights, IndexRange). The kernel multiplies tile by tile: 4 x 2 output tiles of [2048, 2048], each
   accumulated over sixteen contraction blocks of 256 in a tile carried from grid point to grid point (Cases,
   TileProduct, Tiles), and on the extended reals, where addition is commutative and associative with no side condition,
   the sixteen partial sums started from zero are the one sum over 4096 the reference's single product takes
   (Contraction, SixteenSteps, ProductArray). The re-layouts around the product ([4, 2048, 4096] as [8192, 4096] and back,
   the weights transposed) move entries without changing them (KernelValue); the reference's product is read at an
   index by the generated stage lemmas (RefProduct). Finiteness of the float inputs is not used. -/
import proofs.«429604_j50663434223825_3_alg».proof.Defs
import proofs.«429604_j50663434223825_3_alg».proof.Proof.Gen.Kernel
import proofs.«429604_j50663434223825_3_alg».proof.Proof.Gen.Kernel.Skeleton
import proofs.«429604_j50663434223825_3_alg».proof.Proof.Gen.Kernel.Launch
import proofs.«429604_j50663434223825_3_alg».proof.Proof.Gen.Kernel.Points
import proofs.«429604_j50663434223825_3_alg».proof.Proof.Gen.Kernel.Frame
import proofs.«429604_j50663434223825_3_alg».proof.Proof.Gen.KernelIdeal
import proofs.«429604_j50663434223825_3_alg».proof.Proof.Gen.KernelIdeal.Skeleton
import proofs.«429604_j50663434223825_3_alg».proof.Proof.Gen.KernelIdeal.Launch
import proofs.«429604_j50663434223825_3_alg».proof.Proof.Gen.KernelIdeal.Points
import proofs.«429604_j50663434223825_3_alg».proof.Proof.Gen.KernelIdeal.Frame
import proofs.«429604_j50663434223825_3_alg».proof.Proof.Gen.ReferenceIdeal
import proofs.«429604_j50663434223825_3_alg».proof.Proof.Gen.ReferenceIdeal.Run
import proofs.«429604_j50663434223825_3_alg».proof.Proof.Gen.ReferenceIdeal.Read
import proofs.«429604_j50663434223825_3_alg».proof.Proof.Gen.Pre_finite_inputs
import proofs.«429604_j50663434223825_3_alg».proof.Proof.IndexRange
import proofs.«429604_j50663434223825_3_alg».proof.Proof.KernelValue
import proofs.«429604_j50663434223825_3_alg».proof.Proof.RefProduct
import Idealize.ShloMosaic.Adequacy
import Idealize.ShloMosaic.Init

set_option maxRecDepth 16384

noncomputable section

namespace Cert.Proof

open Idealize.ShloMosaic Idealize.SL.Sem

/-- The three programs run, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition the packed table index is in range at every entry of the kernel's index arguments. -/
theorem in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KernelValue.InRange m c :=
  fun i => Cert.Hand.IndexRange.packed_in_range _ _ _ _ _ (hpre c) i

/-- Both results are the linear layer of the activations and the unguarded looked-up, scaled weights. -/
theorem algebraic : Cert.algebraic_KernelIdeal_ReferenceIdeal := by
  intro m ρ m' ρ' hpre hagree
  refine ⟨_, Cert.KernelIdeal.KernelValue.run m ρ (in_range m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v12_eq, Cert.ReferenceIdeal.RefProduct.product_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
